-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144 : Shape := ⟨1, ![262144]⟩
abbrev S50000x100 : Shape := ⟨2, ![50000, 100]⟩
abbrev S64x25 : Shape := ⟨2, ![64, 25]⟩
abbrev S400x125 : Shape := ⟨2, ![400, 125]⟩
abbrev S400 : Shape := ⟨1, ![400]⟩
abbrev S_ : Shape := ⟨0, ![]⟩

class Facts : Prop where
  bcast_S_S50000x100 : S_.BroadcastsInDim S50000x100 (![] : Fin 0 → Fin S50000x100.rank)
  reducesTo_S50000x100_S_d0_1 : S50000x100.ReducesTo [0, 1] S_
  h_S_ : 0 < S_.numel
  bcast_S_S64x25 : S_.BroadcastsInDim S64x25 (![] : Fin 0 → Fin S64x25.rank)
  reducesTo_S64x25_S_d0_1 : S64x25.ReducesTo [0, 1] S_
  bcast_S_S400x125 : S_.BroadcastsInDim S400x125 (![] : Fin 0 → Fin S400x125.rank)
  reducesTo_S400x125_S_d0_1 : S400x125.ReducesTo [0, 1] S_
  bcast_S_S400 : S_.BroadcastsInDim S400 (![] : Fin 0 → Fin S400.rank)
  reducesTo_S400_S_d0 : S400.ReducesTo [0] S_

variable [Facts]

def fn_part2 {F : FTy → Type} [FloatOps F] (main_arg9 : FVec F S400 .f32) (main_v33 : IVec S_ 1) : IVec S_ 1 :=
  let main_v34 : FVec F S400 .f32 := Host.absf main_arg9
  let main_cst_12 : FVec F S_ .f32 := constant S_ .f32 0x7F800000#32
  let main_v35 : FVec F S400 .f32 := broadcastInDim S400 ![] bcast_S_S400 main_cst_12
  let main_v36 : IVec S400 1 := cmpf .olt main_v34 main_v35
  let main_c_13 : IVec S_ 1 := constantI S_ 1 1#1
  let main_v37 : IVec S_ 1 := (fun x v => Host.reduce IntOp.andi x v reducesTo_S400_S_d0 h_S_) main_v36 main_c_13
  let main_v38 : IVec S_ 1 := andi main_v33 main_v37
  main_v38

def fn_part1 {F : FTy → Type} [FloatOps F] (main_arg6 : FVec F S400 .f32) (main_arg7 : FVec F S400x125 .f32) (main_arg8 : FVec F S400 .f32) (main_arg9 : FVec F S400 .f32) (main_v13 : IVec S_ 1) (main_v16 : IVec S400 1) : IVec S_ 1 :=
  let main_c_5 : IVec S_ 1 := constantI S_ 1 1#1
  let main_v17 : IVec S_ 1 := (fun x v => Host.reduce IntOp.andi x v reducesTo_S400_S_d0 h_S_) main_v16 main_c_5
  let main_v18 : IVec S_ 1 := andi main_v13 main_v17
  let main_v19 : FVec F S400 .f32 := Host.absf main_arg6
  let main_cst_6 : FVec F S_ .f32 := constant S_ .f32 0x7F800000#32
  let main_v20 : FVec F S400 .f32 := broadcastInDim S400 ![] bcast_S_S400 main_cst_6
  let main_v21 : IVec S400 1 := cmpf .olt main_v19 main_v20
  let main_c_7 : IVec S_ 1 := constantI S_ 1 1#1
  let main_v22 : IVec S_ 1 := (fun x v => Host.reduce IntOp.andi x v reducesTo_S400_S_d0 h_S_) main_v21 main_c_7
  let main_v23 : IVec S_ 1 := andi main_v18 main_v22
  let main_v24 : FVec F S400x125 .f32 := Host.absf main_arg7
  let main_cst_8 : FVec F S_ .f32 := constant S_ .f32 0x7F800000#32
  let main_v25 : FVec F S400x125 .f32 := broadcastInDim S400x125 ![] bcast_S_S400x125 main_cst_8
  let main_v26 : IVec S400x125 1 := cmpf .olt main_v24 main_v25
  let main_c_9 : IVec S_ 1 := constantI S_ 1 1#1
  let main_v27 : IVec S_ 1 := (fun x v => Host.reduce IntOp.andi x v reducesTo_S400x125_S_d0_1 h_S_) main_v26 main_c_9
  let main_v28 : IVec S_ 1 := andi main_v23 main_v27
  let main_v29 : FVec F S400 .f32 := Host.absf main_arg8
  let main_cst_10 : FVec F S_ .f32 := constant S_ .f32 0x7F800000#32
  let main_v30 : FVec F S400 .f32 := broadcastInDim S400 ![] bcast_S_S400 main_cst_10
  let main_v31 : IVec S400 1 := cmpf .olt main_v29 main_v30
  let main_c_11 : IVec S_ 1 := constantI S_ 1 1#1
  let main_v32 : IVec S_ 1 := (fun x v => Host.reduce IntOp.andi x v reducesTo_S400_S_d0 h_S_) main_v31 main_c_11
  let main_v33 : IVec S_ 1 := andi main_v28 main_v32
  fn_part2 (F := F) main_arg9 main_v33

def fn {F : FTy → Type} [FloatOps F] (main_arg0 : IVec S262144 32) (main_arg1 : IVec S262144 32) (main_arg2 : FVec F S50000x100 .f32) (main_arg3 : FVec F S64x25 .f32) (main_arg4 : FVec F S400x125 .f32) (main_arg5 : FVec F S400 .f32) (main_arg6 : FVec F S400 .f32) (main_arg7 : FVec F S400x125 .f32) (main_arg8 : FVec F S400 .f32) (main_arg9 : FVec F S400 .f32) : IVec S_ 1 :=
  let main_v0 : FVec F S50000x100 .f32 := Host.absf main_arg2
  let main_cst : FVec F S_ .f32 := constant S_ .f32 0x7F800000#32
  let main_v1 : FVec F S50000x100 .f32 := broadcastInDim S50000x100 ![] bcast_S_S50000x100 main_cst
  let main_v2 : IVec S50000x100 1 := cmpf .olt main_v0 main_v1
  let main_c : IVec S_ 1 := constantI S_ 1 1#1
  let main_v3 : IVec S_ 1 := (fun x v => Host.reduce IntOp.andi x v reducesTo_S50000x100_S_d0_1 h_S_) main_v2 main_c
  let main_v4 : FVec F S64x25 .f32 := Host.absf main_arg3
  let main_cst_0 : FVec F S_ .f32 := constant S_ .f32 0x7F800000#32
  let main_v5 : FVec F S64x25 .f32 := broadcastInDim S64x25 ![] bcast_S_S64x25 main_cst_0
  let main_v6 : IVec S64x25 1 := cmpf .olt main_v4 main_v5
  let main_c_1 : IVec S_ 1 := constantI S_ 1 1#1
  let main_v7 : IVec S_ 1 := (fun x v => Host.reduce IntOp.andi x v reducesTo_S64x25_S_d0_1 h_S_) main_v6 main_c_1
  let main_v8 : IVec S_ 1 := andi main_v3 main_v7
  let main_v9 : FVec F S400x125 .f32 := Host.absf main_arg4
  let main_cst_2 : FVec F S_ .f32 := constant S_ .f32 0x7F800000#32
  let main_v10 : FVec F S400x125 .f32 := broadcastInDim S400x125 ![] bcast_S_S400x125 main_cst_2
  let main_v11 : IVec S400x125 1 := cmpf .olt main_v9 main_v10
  let main_c_3 : IVec S_ 1 := constantI S_ 1 1#1
  let main_v12 : IVec S_ 1 := (fun x v => Host.reduce IntOp.andi x v reducesTo_S400x125_S_d0_1 h_S_) main_v11 main_c_3
  let main_v13 : IVec S_ 1 := andi main_v8 main_v12
  let main_v14 : FVec F S400 .f32 := Host.absf main_arg5
  let main_cst_4 : FVec F S_ .f32 := constant S_ .f32 0x7F800000#32
  let main_v15 : FVec F S400 .f32 := broadcastInDim S400 ![] bcast_S_S400 main_cst_4
  let main_v16 : IVec S400 1 := cmpf .olt main_v14 main_v15
  fn_part1 (F := F) main_arg6 main_arg7 main_arg8 main_arg9 main_v13 main_v16
-- ==== Kernel.lean ====
abbrev S262144 : Shape := ⟨1, ![262144]⟩
abbrev S50000x100 : Shape := ⟨2, ![50000, 100]⟩
abbrev S64x25 : Shape := ⟨2, ![64, 25]⟩
abbrev S400x125 : Shape := ⟨2, ![400, 125]⟩
abbrev S400 : Shape := ⟨1, ![400]⟩
abbrev S_ : Shape := ⟨0, ![]⟩
abbrev S262144x1 : Shape := ⟨2, ![262144, 1]⟩
abbrev S262144x100 : Shape := ⟨2, ![262144, 100]⟩
abbrev S262144x25 : Shape := ⟨2, ![262144, 25]⟩
abbrev S262144x125 : Shape := ⟨2, ![262144, 125]⟩
abbrev S125x400 : Shape := ⟨2, ![125, 400]⟩
abbrev S262144x200 : Shape := ⟨2, ![262144, 200]⟩
abbrev S2048x125 : Shape := ⟨2, ![2048, 125]⟩
abbrev S2048x200 : Shape := ⟨2, ![2048, 200]⟩
abbrev S2048x400 : Shape := ⟨2, ![2048, 400]⟩
abbrev S1x400 : Shape := ⟨2, ![1, 400]⟩
abbrev S2048x100 : Shape := ⟨2, ![2048, 100]⟩

abbrev nBuf : Space → Nat
  | .hbm => 34
  | .vmem => 8
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S50000x100, .f32⟩
  | .hbm, ⟨3, _⟩ => ⟨S64x25, .f32⟩
  | .hbm, ⟨4, _⟩ => ⟨S400x125, .f32⟩
  | .hbm, ⟨5, _⟩ => ⟨S400, .f32⟩
  | .hbm, ⟨6, _⟩ => ⟨S400, .f32⟩
  | .hbm, ⟨7, _⟩ => ⟨S400x125, .f32⟩
  | .hbm, ⟨8, _⟩ => ⟨S400, .f32⟩
  | .hbm, ⟨9, _⟩ => ⟨S400, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x100, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x25, .f32⟩
  | .hbm, ⟨28, _⟩ => ⟨S262144x125, .f32⟩
  | .hbm, ⟨29, _⟩ => ⟨S400, .f32⟩
  | .hbm, ⟨30, _⟩ => ⟨S400, .f32⟩
  | .hbm, ⟨31, _⟩ => ⟨S125x400, .f32⟩
  | .hbm, ⟨32, _⟩ => ⟨S125x400, .f32⟩
  | .hbm, ⟨33, _⟩ => ⟨S262144x200, .f32⟩
  | .local _ .vmem, ⟨0, _⟩ => ⟨S2048x125, .f32⟩
  | .local _ .vmem, ⟨1, _⟩ => ⟨S2048x125, .f32⟩
  | .local _ .vmem, ⟨2, _⟩ => ⟨S125x400, .f32⟩
  | .local _ .vmem, ⟨3, _⟩ => ⟨S400, .f32⟩
  | .local _ .vmem, ⟨4, _⟩ => ⟨S125x400, .f32⟩
  | .local _ .vmem, ⟨5, _⟩ => ⟨S400, .f32⟩
  | .local _ .vmem, ⟨6, _⟩ => ⟨S2048x200, .f32⟩
  | .local _ .vmem, ⟨7, _⟩ => ⟨S2048x200, .f32⟩
  | _, _ => ⟨S262144, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x125 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S125x400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S400 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S125x400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S400 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x100_S262144x25_S262144x125_d1 : Shape.Concatenates [S262144x100, S262144x25] S262144x125 1
  transposes_S400x125_S125x400_1_0 : S400x125.Transposes [1, 0] S125x400
  inb_S2048x125_S2048x125_0_0 : ∀ a, (![0, 0] : Fin 2 → Nat) a + S2048x125.size a ≤ S2048x125.size a
  h_S2048x125 : 0 < S2048x125.numel
  shapeCasts_S2048x125_S2048x125 : S2048x125.ShapeCasts S2048x125
  bitsLt_bf16_f32 : FTy.bits .bf16 < FTy.bits .f32
  inb_S125x400_S125x400_0_0 : ∀ a, (![0, 0] : Fin 2 → Nat) a + S125x400.size a ≤ S125x400.size a
  h_S125x400 : 0 < S125x400.numel
  shapeCasts_S125x400_S125x400 : S125x400.ShapeCasts S125x400
  inb_S400_S400_0 : ∀ a, (![0] : Fin 1 → Nat) a + S400.size a ≤ S400.size a
  h_S400 : 0 < S400.numel
  shapeCasts_S400_S400 : S400.ShapeCasts S400
  shapeCasts_S400_S1x400 : S400.ShapeCasts S1x400
  broadcasts_S1x400_S2048x400 : S1x400.Broadcasts S2048x400
  slices_S2048x400_o0_0_S2048x100 : S2048x400.Slices ![0, 0] S2048x100
  slices_S2048x400_o0_100_S2048x100 : S2048x400.Slices ![0, 100] S2048x100
  slices_S2048x400_o0_200_S2048x100 : S2048x400.Slices ![0, 200] S2048x100
  slices_S2048x400_o0_300_S2048x100 : S2048x400.Slices ![0, 300] S2048x100
  concatenates_S2048x100_S2048x100_S2048x200_d1 : Shape.Concatenates [S2048x100, S2048x100] S2048x200 1
  inb_S2048x200_S2048x200_0_0 : ∀ a, (![0, 0] : Fin 2 → Nat) a + S2048x200.size a ≤ S2048x200.size a
  h_S2048x200 : 0 < S2048x200.numel
  gather_S50000x100_S262144x1_S262144x100_1_0_n_n_0_1_1100_wf : GatherDims.WF S50000x100 S262144x1 S262144x100 [1] [0] [] [0] [] 1 ![1, 100]
  gather_S64x25_S262144x1_S262144x25_1_0_n_n_0_1_125_wf : GatherDims.WF S64x25 S262144x1 S262144x25 [1] [0] [] [0] [] 1 ![1, 25]
  dot_S2048x125_S125x400_S2048x400_1_0_0_1_n_n_wf : DotDims.WF S2048x125 S125x400 S2048x400 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x125.size a ≤ S262144x125.size a
  hwx0_0 : ∀ i : grid0.Coords, EltTy.bits .f32 = 32 ∨ (Rect.block (s := S262144x125) S2048x125.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S125x400.size a ≤ S125x400.size a
  hwx0_1 : ∀ i : grid0.Coords, EltTy.bits .f32 = 32 ∨ (Rect.block (s := S125x400) S125x400.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S400.size a ≤ S400.size a
  hwx0_2 : ∀ i : grid0.Coords, EltTy.bits .f32 = 32 ∨ (Rect.block (s := S400) S400.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S125x400.size a ≤ S125x400.size a
  hwx0_3 : ∀ i : grid0.Coords, EltTy.bits .f32 = 32 ∨ (Rect.block (s := S125x400) S125x400.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S400.size a ≤ S400.size a
  hwx0_4 : ∀ i : grid0.Coords, EltTy.bits .f32 = 32 ∨ (Rect.block (s := S400) S400.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x200.size a ≤ S262144x200.size a
  hwx0_5 : ∀ i : grid0.Coords, EltTy.bits .f32 = 32 ∨ (Rect.block (s := S262144x200) S2048x200.size (cc0_transform_5 i) (hinb0_5 i)).WholeWords (EltTy.packing .f32)

variable [Facts₀]

def gather_S50000x100_S262144x1_S262144x100_1_0_n_n_0_1_1100 : GatherDims S50000x100 S262144x1 S262144x100 where
  offsetDims := [1]
  collapsedSliceDims := [0]
  operandBatchingDims := []
  startIndicesBatchingDims := []
  startIndexMap := [0]
  indexVectorDim := 1
  sliceSizes := ![1, 100]
  wf := gather_S50000x100_S262144x1_S262144x100_1_0_n_n_0_1_1100_wf
def gather_S64x25_S262144x1_S262144x25_1_0_n_n_0_1_125 : GatherDims S64x25 S262144x1 S262144x25 where
  offsetDims := [1]
  collapsedSliceDims := [0]
  operandBatchingDims := []
  startIndicesBatchingDims := []
  startIndexMap := [0]
  indexVectorDim := 1
  sliceSizes := ![1, 25]
  wf := gather_S64x25_S262144x1_S262144x25_1_0_n_n_0_1_125_wf
def dot_S2048x125_S125x400_S2048x400_1_0_0_1_n_n : DotDims S2048x125 S125x400 S2048x400 where
  lhsContracting := [1]
  rhsContracting := [0]
  lhsNonContracting := [0]
  rhsNonContracting := [1]
  lhsBatch := []
  rhsBatch := []
  wf := dot_S2048x125_S125x400_S2048x400_1_0_0_1_n_n_wf

abbrev win0_0 : Pipeline.Window sig grid0 :=
  Pipeline.Window.ofSpec (Memref.whole main_v14) S2048x125.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S125x400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S400.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S125x400.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S400.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S2048x200.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144 : Shape := ⟨1, ![262144]⟩
abbrev S50000x100 : Shape := ⟨2, ![50000, 100]⟩
abbrev S64x25 : Shape := ⟨2, ![64, 25]⟩
abbrev S400x125 : Shape := ⟨2, ![400, 125]⟩
abbrev S400 : Shape := ⟨1, ![400]⟩
abbrev S_ : Shape := ⟨0, ![]⟩
abbrev S262144x1 : Shape := ⟨2, ![262144, 1]⟩
abbrev S262144x100 : Shape := ⟨2, ![262144, 100]⟩
abbrev S262144x25 : Shape := ⟨2, ![262144, 25]⟩
abbrev S262144x125 : Shape := ⟨2, ![262144, 125]⟩
abbrev S125x400 : Shape := ⟨2, ![125, 400]⟩
abbrev S262144x400 : Shape := ⟨2, ![262144, 400]⟩
abbrev S1x400 : Shape := ⟨2, ![1, 400]⟩
abbrev S262144x200 : Shape := ⟨2, ![262144, 200]⟩

abbrev nBuf : Space → Nat
  | .hbm => 90
  | .vmem => 0
  | .smem => 0
  | _ => 0

abbrev bufTy : (tb : Table) → Fin (tcTables nBuf tb) → BufTy
  | .hbm, ⟨0, _⟩ => ⟨S262144, .i32⟩
  | .hbm, ⟨1, _⟩ => ⟨S262144, .i32⟩
  | .hbm, ⟨2, _⟩ => ⟨S50000x100, .f32⟩
  | .hbm, ⟨3, _⟩ => ⟨S64x25, .f32⟩
  | .hbm, ⟨4, _⟩ => ⟨S400x125, .f32⟩
  | .hbm, ⟨5, _⟩ => ⟨S400, .f32⟩
  | .hbm, ⟨6, _⟩ => ⟨S400, .f32⟩
  | .hbm, ⟨7, _⟩ => ⟨S400x125, .f32⟩
  | .hbm, ⟨8, _⟩ => ⟨S400, .f32⟩
  | .hbm, ⟨9, _⟩ => ⟨S400, .f32⟩
  | .hbm, ⟨10, _⟩ => ⟨S_, .i32⟩
  | .hbm, ⟨11, _⟩ => ⟨S262144, .i32⟩
  | .hbm, ⟨12, _⟩ => ⟨S262144, .i1⟩
  | .hbm, ⟨13, _⟩ => ⟨S_, .i32⟩
  | .hbm, ⟨14, _⟩ => ⟨S262144, .i32⟩
  | .hbm, ⟨15, _⟩ => ⟨S262144, .i32⟩
  | .hbm, ⟨16, _⟩ => ⟨S262144, .i32⟩
  | .hbm, ⟨17, _⟩ => ⟨S262144x1, .i32⟩
  | .hbm, ⟨18, _⟩ => ⟨S262144x100, .f32⟩
  | .hbm, ⟨19, _⟩ => ⟨S_, .i32⟩
  | .hbm, ⟨20, _⟩ => ⟨S262144, .i32⟩
  | .hbm, ⟨21, _⟩ => ⟨S262144, .i1⟩
  | .hbm, ⟨22, _⟩ => ⟨S_, .i32⟩
  | .hbm, ⟨23, _⟩ => ⟨S262144, .i32⟩
  | .hbm, ⟨24, _⟩ => ⟨S262144, .i32⟩
  | .hbm, ⟨25, _⟩ => ⟨S262144, .i32⟩
  | .hbm, ⟨26, _⟩ => ⟨S262144x1, .i32⟩
  | .hbm, ⟨27, _⟩ => ⟨S262144x25, .f32⟩
  | .hbm, ⟨28, _⟩ => ⟨S262144x125, .f32⟩
  | .hbm, ⟨29, _⟩ => ⟨S400, .f32⟩
  | .hbm, ⟨30, _⟩ => ⟨S125x400, .f32⟩
  | .hbm, ⟨31, _⟩ => ⟨S262144x400, .f32⟩
  | .hbm, ⟨32, _⟩ => ⟨S1x400, .f32⟩
  | .hbm, ⟨33, _⟩ => ⟨S262144x400, .f32⟩
  | .hbm, ⟨34, _⟩ => ⟨S262144x400, .f32⟩
  | .hbm, ⟨35, _⟩ => ⟨S262144x100, .f32⟩
  | .hbm, ⟨36, _⟩ => ⟨S262144x100, .f32⟩
  | .hbm, ⟨37, _⟩ => ⟨S262144x100, .f32⟩
  | .hbm, ⟨38, _⟩ => ⟨S262144x100, .f32⟩
  | .hbm, ⟨39, _⟩ => ⟨S262144x100, .f32⟩
  | .hbm, ⟨40, _⟩ => ⟨S262144x100, .f32⟩
  | .hbm, ⟨41, _⟩ => ⟨S_, .f32⟩
  | .hbm, ⟨42, _⟩ => ⟨S262144x100, .f32⟩
  | .hbm, ⟨43, _⟩ => ⟨S262144x100, .f32⟩
  | .hbm, ⟨44, _⟩ => ⟨S_, .f32⟩
  | .hbm, ⟨45, _⟩ => ⟨S262144x100, .f32⟩
  | .hbm, ⟨46, _⟩ => ⟨S262144x100, .f32⟩
  | .hbm, ⟨47, _⟩ => ⟨S262144x100, .f32⟩
  | .hbm, ⟨48, _⟩ => ⟨S262144x100, .f32⟩
  | .hbm, ⟨49, _⟩ => ⟨S262144x100, .f32⟩
  | .hbm, ⟨50, _⟩ => ⟨S262144x100, .f32⟩
  | .hbm, ⟨51, _⟩ => ⟨S_, .f32⟩
  | .hbm, ⟨52, _⟩ => ⟨S262144x100, .f32⟩
  | .hbm, ⟨53, _⟩ => ⟨S262144x100, .f32⟩
  | .hbm, ⟨54, _⟩ => ⟨S_, .f32⟩
  | .hbm, ⟨55, _⟩ => ⟨S262144x100, .f32⟩
  | .hbm, ⟨56, _⟩ => ⟨S262144x100, .f32⟩
  | .hbm, ⟨57, _⟩ => ⟨S262144x100, .f32⟩
  | .hbm, ⟨58, _⟩ => ⟨S262144x100, .f32⟩
  | .hbm, ⟨59, _⟩ => ⟨S400, .f32⟩
  | .hbm, ⟨60, _⟩ => ⟨S125x400, .f32⟩
  | .hbm, ⟨61, _⟩ => ⟨S262144x400, .f32⟩
  | .hbm, ⟨62, _⟩ => ⟨S1x400, .f32⟩
  | .hbm, ⟨63, _⟩ => ⟨S262144x400, .f32⟩
  | .hbm, ⟨64, _⟩ => ⟨S262144x400, .f32⟩
  | .hbm, ⟨65, _⟩ => ⟨S262144x100, .f32⟩
  | .hbm, ⟨66, _⟩ => ⟨S262144x100, .f32⟩
  | .hbm, ⟨67, _⟩ => ⟨S262144x100, .f32⟩
  | .hbm, ⟨68, _⟩ => ⟨S262144x100, .f32⟩
  | .hbm, ⟨69, _⟩ => ⟨S262144x100, .f32⟩
  | .hbm, ⟨70, _⟩ => ⟨S262144x100, .f32⟩
  | .hbm, ⟨71, _⟩ => ⟨S_, .f32⟩
  | .hbm, ⟨72, _⟩ => ⟨S262144x100, .f32⟩
  | .hbm, ⟨73, _⟩ => ⟨S262144x100, .f32⟩
  | .hbm, ⟨74, _⟩ => ⟨S_, .f32⟩
  | .hbm, ⟨75, _⟩ => ⟨S262144x100, .f32⟩
  | .hbm, ⟨76, _⟩ => ⟨S262144x100, .f32⟩
  | .hbm, ⟨77, _⟩ => ⟨S262144x100, .f32⟩
  | .hbm, ⟨78, _⟩ => ⟨S262144x100, .f32⟩
  | .hbm, ⟨79, _⟩ => ⟨S262144x100, .f32⟩
  | .hbm, ⟨80, _⟩ => ⟨S262144x100, .f32⟩
  | .hbm, ⟨81, _⟩ => ⟨S_, .f32⟩
  | .hbm, ⟨82, _⟩ => ⟨S262144x100, .f32⟩
  | .hbm, ⟨83, _⟩ => ⟨S262144x100, .f32⟩
  | .hbm, ⟨84, _⟩ => ⟨S_, .f32⟩
  | .hbm, ⟨85, _⟩ => ⟨S262144x100, .f32⟩
  | .hbm, ⟨86, _⟩ => ⟨S262144x100, .f32⟩
  | .hbm, ⟨87, _⟩ => ⟨S262144x100, .f32⟩
  | .hbm, ⟨88, _⟩ => ⟨S262144x100, .f32⟩
  | .hbm, ⟨89, _⟩ => ⟨S262144x200, .f32⟩
  | _, _ => ⟨S262144, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_6 : Ref sig .tc := ⟨.hbm, 71, rfl⟩
abbrev main_v53 : Ref sig .tc := ⟨.hbm, 72, rfl⟩
abbrev main_v54 : Ref sig .tc := ⟨.hbm, 73, rfl⟩
abbrev main_cst_7 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_cst_9 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩

abbrev nD : Nat := 1
abbrev τ : Topo := Topo.v7x

variable {F : FTy → Type} [FloatOps F]

class Facts₀ : Prop where
  bcast_S_S262144 : S_.BroadcastsInDim S262144 (![] : Fin 0 → Fin S262144.rank)
  bcast_S262144_S262144x1_0 : S262144.BroadcastsInDim S262144x1 (![0] : Fin 1 → Fin S262144x1.rank)
  concatenates_S262144x100_S262144x25_S262144x125_d1 : Shape.Concatenates [S262144x100, S262144x25] S262144x125 1
  transposes_S400x125_S125x400_1_0 : S400x125.Transposes [1, 0] S125x400
  bcast_S400_S1x400_1 : S400.BroadcastsInDim S1x400 (![1] : Fin 1 → Fin S1x400.rank)
  bcast_S1x400_S262144x400_0_1 : S1x400.BroadcastsInDim S262144x400 (![0, 1] : Fin 2 → Fin S262144x400.rank)
  slices_S262144x400_S262144x100_0_0 : S262144x400.Slices ![0, 0] S262144x100
  slices_S262144x400_S262144x100_0_100 : S262144x400.Slices ![0, 100] S262144x100
  slices_S262144x400_S262144x100_0_200 : S262144x400.Slices ![0, 200] S262144x100
  slices_S262144x400_S262144x100_0_300 : S262144x400.Slices ![0, 300] S262144x100
  bcast_S_S262144x100 : S_.BroadcastsInDim S262144x100 (![] : Fin 0 → Fin S262144x100.rank)
  concatenates_S262144x100_S262144x100_S262144x200_d1 : Shape.Concatenates [S262144x100, S262144x100] S262144x200 1
  gather_S50000x100_S262144x1_S262144x100_1_0_n_n_0_1_1100_wf : GatherDims.WF S50000x100 S262144x1 S262144x100 [1] [0] [] [0] [] 1 ![1, 100]
  gather_S64x25_S262144x1_S262144x25_1_0_n_n_0_1_125_wf : GatherDims.WF S64x25 S262144x1 S262144x25 [1] [0] [] [0] [] 1 ![1, 25]
  dot_S262144x125_S125x400_S262144x400_1_0_0_1_n_n_wf : DotDims.WF S262144x125 S125x400 S262144x400 [1] [0] [0] [1] [] []

variable [Facts₀]

def gather_S50000x100_S262144x1_S262144x100_1_0_n_n_0_1_1100 : GatherDims S50000x100 S262144x1 S262144x100 where
  offsetDims := [1]
  collapsedSliceDims := [0]
  operandBatchingDims := []
  startIndicesBatchingDims := []
  startIndexMap := [0]
  indexVectorDim := 1
  sliceSizes := ![1, 100]
  wf := gather_S50000x100_S262144x1_S262144x100_1_0_n_n_0_1_1100_wf
def gather_S64x25_S262144x1_S262144x25_1_0_n_n_0_1_125 : GatherDims S64x25 S262144x1 S262144x25 where
  offsetDims := [1]
  collapsedSliceDims := [0]
  operandBatchingDims := []
  startIndicesBatchingDims := []
  startIndexMap := [0]
  indexVectorDim := 1
  sliceSizes := ![1, 25]
  wf := gather_S64x25_S262144x1_S262144x25_1_0_n_n_0_1_125_wf
def dot_S262144x125_S125x400_S262144x400_1_0_0_1_n_n : DotDims S262144x125 S125x400 S262144x400 where
  lhsContracting := [1]
  rhsContracting := [0]
  lhsNonContracting := [0]
  rhsNonContracting := [1]
  lhsBatch := []
  rhsBatch := []
  wf := dot_S262144x125_S125x400_S262144x400_1_0_0_1_n_n_wf

class Facts : Prop extends Facts₀ where

variable [Facts]
-- ==== Proof.Cell.lean ====
/-
  One token's bidirectional LSTM step from the zero state, over the extended reals.

  A token's embedding row `x` (125 entries) meets a direction's transposed input weights `W` ([125, 400]) and summed
  bias `B` ([400]): gate `k` is `(∑ d, x d · W (d, k)) + B k`. The four gate groups of 100 are, in order, input, forget,
  cell and output. From a zero cell state the forget group plays no part: hidden unit `j` is
  `σ(gate (300 + j)) · tanh (σ(gate j) · tanh (gate (200 + j)))`, `σ x = 1 / (1 + e⁻ˣ)`. The result row has the forward
  direction's 100 hidden units followed by the backward direction's.
-/
import Idealize.ShloMosaic.PureOps.Ideal.Laws
import Idealize.ShloMosaic.Lib.ValueIdx

noncomputable section

namespace Cert.Cell

open Idealize.ShloMosaic Idealize.ShloMosaic.ValueIdx

/-- Column `o + j` of the 400 gate columns, for a group starting at `o`. -/
abbrev col (o : Nat) (j : Fin 100) (h : o + 100 ≤ 400) : Fin 400 := ⟨o + j.val, by have := j.isLt; omega⟩

/-- Gate pre-activation `k` of a row: the row against column `k` of the weights, plus the bias. -/
def gate (x : Fin 125 → EReal) (W : (⟨2, ![125, 400]⟩ : Shape).Idx → EReal) (B : (⟨1, ![400]⟩ : Shape).Idx → EReal)
    (k : Fin 400) : EReal :=
  (∑ d : Fin 125, x d * W (ix2 d k)) + B (ix1 k)

/-- Hidden unit `j` of one direction, from the zero state. -/
def hidden (x : Fin 125 → EReal) (W : (⟨2, ![125, 400]⟩ : Shape).Idx → EReal) (B : (⟨1, ![400]⟩ : Shape).Idx → EReal)
    (j : Fin 100) : EReal :=
  Ideal.logistic (gate x W B (col 300 j (by omega)))
    * Ideal.tanh (Ideal.logistic (gate x W B (col 0 j (by omega))) * Ideal.tanh (gate x W B (col 200 j (by omega))))

/-- Entry `q` of a token's result row: forward hidden units, then backward ones. -/
def out (x : Fin 125 → EReal) (Wf : (⟨2, ![125, 400]⟩ : Shape).Idx → EReal) (Bf : (⟨1, ![400]⟩ : Shape).Idx → EReal)
    (Wb : (⟨2, ![125, 400]⟩ : Shape).Idx → EReal) (Bb : (⟨1, ![400]⟩ : Shape).Idx → EReal) (q : Fin 200) : EReal :=
  if h : q.val < 100 then hidden x Wf Bf ⟨q.val, h⟩
  else hidden x Wb Bb ⟨q.val - 100, by have := q.isLt; omega⟩

/-- The whole result for `R` tokens: row `n` of `X` through `out`. -/
def result (R : Nat) (X : (⟨2, ![R, 125]⟩ : Shape).Idx → EReal) (Wf : (⟨2, ![125, 400]⟩ : Shape).Idx → EReal)
    (Bf : (⟨1, ![400]⟩ : Shape).Idx → EReal) (Wb : (⟨2, ![125, 400]⟩ : Shape).Idx → EReal)
    (Bb : (⟨1, ![400]⟩ : Shape).Idx → EReal) : (⟨2, ![R, 200]⟩ : Shape).Idx → EReal :=
  fun i => out (fun d => X (ix2 (i 0) d)) Wf Bf Wb Bb (i 1)

theorem result_ix2 (R : Nat) (X : (⟨2, ![R, 125]⟩ : Shape).Idx → EReal) (Wf : (⟨2, ![125, 400]⟩ : Shape).Idx → EReal)
    (Bf : (⟨1, ![400]⟩ : Shape).Idx → EReal) (Wb : (⟨2, ![125, 400]⟩ : Shape).Idx → EReal)
    (Bb : (⟨1, ![400]⟩ : Shape).Idx → EReal) (p : Fin R) (q : Fin 200) :
    result R X Wf Bf Wb Bb (ix2 p q) = out (fun d => X (ix2 p d)) Wf Bf Wb Bb q := rfl

/-- The pattern of `1.0` denotes the real one. -/
theorem one_f32 : Ideal.ofBits .f32 0x3F800000#32 = 1 := IdealRules.sign_bit.ideal_onePat .f32

/-- The logistic function written out with host operations' values: `1 / (1 + e⁻ˣ)`. -/
theorem logistic_expanded (x : EReal) :
    Ideal.div (Ideal.ofBits .f32 0x3F800000#32) (Ideal.ofBits .f32 0x3F800000#32 + Ideal.exp (-x)) = Ideal.logistic x := by
  rw [one_f32]; rfl

end Cert.Cell

end
-- ==== Proof.LibPlainDot.lean ====
/-
  A plain two-dimensional contraction read at one element over the extended reals.

  For the dimension numbers of an [M, K] by [K, N] product (the left operand's axis 1 contracted against the right
  operand's axis 0, no batch axis), entry (p, q) of the product is the sum over k of lhs (p, k) · rhs (k, q). This holds
  of a kernel's matrix product into a zero accumulator and of the host's dot_general alike, whatever the precision
  attribute: at the extended reals both are the textbook contraction. Generic in the three extents.
-/
import Idealize.ShloMosaic.PureOps.Ideal.Laws
import Idealize.ShloMosaic.Lib.ValueIdx

noncomputable section

namespace Cert.Lib.PlainDot

open Idealize.ShloMosaic Idealize.ShloMosaic.ValueIdx

variable (M K N : Nat)

/-- Axis 0 of the left operand is free: it reads the output's row coordinate. -/
theorem lhs_axis0 (i : (⟨2, ![M, N]⟩ : Shape).Idx) (r : (DotDims.plain M K N).contr.Idx) :
    ((DotDims.plain M K N).lhsIdx i r 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- Axis 1 of the left operand is the contracted one: it reads the contraction position. -/
theorem lhs_axis1 (i : (⟨2, ![M, N]⟩ : Shape).Idx) (r : (DotDims.plain M K N).contr.Idx) :
    ((DotDims.plain M K N).lhsIdx i r 1).val = (r ⟨0, Nat.one_pos⟩).val :=
  (DotDims.plain M K N).lhsIdx_val_of_single rfl i r

/-- Axis 0 of the right operand is the contracted one. -/
theorem rhs_axis0 (i : (⟨2, ![M, N]⟩ : Shape).Idx) (r : (DotDims.plain M K N).contr.Idx) :
    ((DotDims.plain M K N).rhsIdx i r 0).val = (r ⟨0, Nat.one_pos⟩).val :=
  (DotDims.plain M K N).rhsIdx_val_of_single rfl i r

/-- Axis 1 of the right operand is free: it reads the output's column coordinate. -/
theorem rhs_axis1 (i : (⟨2, ![M, N]⟩ : Shape).Idx) (r : (DotDims.plain M K N).contr.Idx) :
    ((DotDims.plain M K N).rhsIdx i r 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum over its one-axis index shape, re-indexed by that axis' coordinate: the sum over
    `k : Fin K` of lhs (p, k) · rhs (k, q). -/
theorem sum_eq (lhs : (⟨2, ![M, K]⟩ : Shape).Idx → EReal) (rhs : (⟨2, ![K, N]⟩ : Shape).Idx → EReal)
    (p : Fin M) (q : Fin N) :
    (∑ r : (DotDims.plain M K N).contr.Idx,
        lhs ((DotDims.plain M K N).lhsIdx (ix2 p q) r) * rhs ((DotDims.plain M K N).rhsIdx (ix2 p q) r))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_axis0 M K N _ _
      | ⟨1, _⟩ => exact (lhs_axis1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_axis0 M K N _ _).trans hk
      | ⟨1, _⟩ => exact rhs_axis1 M K N _ _)
  rw [el, er]

/-- A kernel's matrix product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_eq M K N lhs rhs p q

/-- The host's dot_general, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_eq M K N lhs rhs p q

end Cert.Lib.PlainDot

end
-- ==== Proof.KernelCell.lean ====
/-
  The kernel body's one stored value, read at an entry.

  The body multiplies a block of 2048 token rows by each direction's weights (operands narrowed to bf16, which
  over the extended reals changes nothing), adds the bias row to every row, cuts the four gate groups out of
  the 400 gate columns, applies the logistic function and tanh, and lays the two directions' hidden units side
  by side. Entry (p, q) of the stored value is therefore the step's result row for token row p, at position q.
-/
import proofs.«151744_j28037546508993_1_alg».proof.Proof.Gen.KernelIdeal.Skeleton
import proofs.«151744_j28037546508993_1_alg».proof.Proof.Cell
import proofs.«151744_j28037546508993_1_alg».proof.Proof.LibPlainDot
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.Cell

/-- Gate (p, k) of a block: row p against column k of the weights, plus bias k. -/
theorem gates_apply (x : FVec Ideal S2048x125 .f32) (w : FVec Ideal S125x400 .f32) (b : FVec Ideal S400 .f32)
    (h1 : S2048x125.ShapeCasts S2048x125) (h2 : S125x400.ShapeCasts S125x400) (h3 : S400.ShapeCasts S400)
    (h4 : S400.ShapeCasts S1x400) (h5 : S1x400.Broadcasts S2048x400) (hb : FTy.bits .bf16 < FTy.bits .f32)
    (p : Fin 2048) (k : Fin 400) :
    addf (F := Ideal) (matmul (F := Ideal) dot_S2048x125_S125x400_S2048x400_1_0_0_1_n_n none
        (truncf (F := Ideal) .bf16 (shapeCast S2048x125 x h1) hb) (truncf (F := Ideal) .bf16 (shapeCast S125x400 w h2) hb)
        (constant (F := Ideal) S2048x400 .f32 0x00000000#32))
      (broadcastTo S2048x400 (shapeCast S1x400 (shapeCast S400 b h3) h4) h5) (ix2 p k)
    = gate (fun d => x (ix2 p d)) w b k := by
  rw [addf_apply, shapeCast_self, shapeCast_self, shapeCast_self, broadcastTo_1b_ab_apply, shapeCast_a_1a_apply]
  unfold gate
  refine congrArg (· + b (ix1 k)) ?_
  exact Cert.Lib.PlainDot.matmul_zero_apply 2048 125 400 none _ _ p k

/-- Hidden unit (p, j) of one direction, from that direction's gates of row p: the output group's logistic value
    times tanh of the new cell state, itself the input group's logistic value times tanh of the cell group. -/
theorem hidden_apply (g : FVec Ideal S2048x400 .f32) (x : Fin 125 → EReal) (w : FVec Ideal S125x400 .f32)
    (b : FVec Ideal S400 .f32) (p : Fin 2048) (hg : ∀ k, g (ix2 p k) = gate x w b k)
    (s0 : S2048x400.Slices ![0, 0] S2048x100) (s2 : S2048x400.Slices ![0, 200] S2048x100)
    (s3 : S2048x400.Slices ![0, 300] S2048x100) (j : Fin 100) :
    mulf (F := Ideal) (logistic (F := Ideal) (extractStridedSlice S2048x100 ![0, 300] g s3))
      (tanh (F := Ideal) (mulf (F := Ideal) (logistic (F := Ideal) (extractStridedSlice S2048x100 ![0, 0] g s0))
        (tanh (F := Ideal) (extractStridedSlice S2048x100 ![0, 200] g s2)))) (ix2 p j)
    = hidden x w b j := by
  show Ideal.logistic (extractStridedSlice S2048x100 ![0, 300] g s3 (ix2 p j))
      * Ideal.tanh (Ideal.logistic (extractStridedSlice S2048x100 ![0, 0] g s0 (ix2 p j))
        * Ideal.tanh (extractStridedSlice S2048x100 ![0, 200] g s2 (ix2 p j))) = _
  rw [slice2_axis1_eq, slice2_axis1_eq, slice2_axis1_eq, hg, hg, hg]
  rfl

/-- THE STORED VALUE AT AN ENTRY: the step's result row for token row p of the block, at position q. -/
theorem pay_apply (v0 : Vec Ideal S2048x125 .f32) (v3 v6 : Vec Ideal S125x400 .f32) (v9 v11 : Vec Ideal S400 .f32)
    (p : Fin 2048) (q : Fin 200) :
    k0_pay1 (F := Ideal) v0 v3 v6 v9 v11 (ix2 p q) = out (fun d => v0 (ix2 p d)) v3 v9 v6 v11 q := by
  unfold k0_pay1 out
  by_cases h : q.val < 100
  · rw [dif_pos h]
    refine (concatenate_pair_apply_left (t := S2048x200) (s₁ := S2048x100) (s₂ := S2048x100) (1 : Fin 2) _ _ _ (ix2 p q) rfl (ix2 p (⟨q.val, h⟩ : Fin 100))
      (fun b => by match b with | ⟨0, _⟩ => rfl | ⟨1, _⟩ => rfl)).trans ?_
    exact hidden_apply _ _ v3 v9 p (fun k => gates_apply v0 v3 v9 _ _ _ _ _ _ p k) _ _ _ ⟨q.val, h⟩
  · rw [dif_neg h]
    have hq : q.val - 100 < 100 := by have := q.isLt; omega
    refine (concatenate_pair_apply_right (t := S2048x200) (s₁ := S2048x100) (s₂ := S2048x100) (1 : Fin 2) _ _ _ (ix2 p q) rfl rfl (ix2 p (⟨q.val - 100, hq⟩ : Fin 100))
      (fun b hb => by
        match b with
        | ⟨0, _⟩ => rfl
        | ⟨1, _⟩ => exact absurd rfl hb)
      (by show (q.val - 100) + 100 = q.val; omega)).trans ?_
    exact hidden_apply _ _ v6 v11 p (fun k => gates_apply v0 v6 v11 _ _ _ _ _ _ p k) _ _ _ ⟨q.val - 100, hq⟩

/-- The same at an index not yet split into its coordinates. -/
theorem pay_apply_idx (v0 : Vec Ideal S2048x125 .f32) (v3 v6 : Vec Ideal S125x400 .f32) (v9 v11 : Vec Ideal S400 .f32)
    (j : S2048x200.Idx) :
    k0_pay1 (F := Ideal) v0 v3 v6 v9 v11 j = out (fun d => v0 (ix2 (j 0) d)) v3 v9 v6 v11 (j 1) :=
  (congrArg (k0_pay1 (F := Ideal) v0 v3 v6 v9 v11) (eq_ix2 j)).trans (pay_apply v0 v3 v6 v9 v11 (j 0) (j 1))

end Cert.KernelIdeal.Body

end
-- ==== Proof.KernelArray.lean ====
/-
  From blocks to the array: what the kernel's run leaves in its result array.

  Grid point t reads token rows 2048·t … 2048·t + 2047 (all 125 columns), both directions' whole weight and bias
  arrays, and writes rows 2048·t … 2048·t + 2047 of the result (all 200 columns). The stored value at (p, q) is the
  step's result row for the block's token row p, so what point t writes back is block t of the whole-array function
  `kernelResult`: row n of the result is the step applied to token row n. The 128 blocks tile the array, so after
  the run the array holds `kernelResult`.
-/
import proofs.«151744_j28037546508993_1_alg».proof.Proof.Gen.KernelIdeal.Value
import proofs.«151744_j28037546508993_1_alg».proof.Proof.KernelCell

noncomputable section

namespace Cert.KernelIdeal.Whole

open Cert.KernelIdeal Cert.KernelIdeal.Gen Idealize.ShloMosaic Idealize.ShloMosaic.TcCoe Idealize.SL.Sem
open Idealize.ShloMosaic.ValueIdx Cert.Cell
open Idealize.ShloMosaic.Pipeline (Dat)

variable (m : (ℓ : Loc nD τ sig) → Buf (Elt Ideal) ℓ) (ρ : Dev nD → PrngReg)

/-- The arrays the region finds: the token rows, and each direction's transposed weights and summed bias. -/
abbrev tokens (c : Dev nD) : FVec Ideal S262144x125 .f32 := V m c main_v14
abbrev wFwd (c : Dev nD) : FVec Ideal S125x400 .f32 := V m c main_v17
abbrev bFwd (c : Dev nD) : FVec Ideal S400 .f32 := V m c main_v15
abbrev wBwd (c : Dev nD) : FVec Ideal S125x400 .f32 := V m c main_v18
abbrev bBwd (c : Dev nD) : FVec Ideal S400 .f32 := V m c main_v16

/-- The result array as one function of those arrays: row n is the step applied to token row n. -/
def kernelResult (c : Dev nD) : FVec Ideal S262144x200 .f32 :=
  result 262144 (tokens m c) (wFwd m c) (bFwd m c) (wBwd m c) (bBwd m c)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the token and result windows move one block of rows per point, the weight
    and bias windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The step's result entry depends only on its arguments. -/
theorem out_congr {x x' : Fin 125 → EReal} {wf wf' wb wb' : (⟨2, ![125, 400]⟩ : Shape).Idx → EReal}
    {bf bf' bb bb' : (⟨1, ![400]⟩ : Shape).Idx → EReal} {q q' : Fin 200}
    (hx : x = x') (h1 : wf = wf') (h2 : bf = bf') (h3 : wb = wb') (h4 : bb = bb') (hq : q = q') :
    out x wf bf wb bb q = out x' wf' bf' wb' bb' q' := by
  subst hx h1 h2 h3 h4 hq; rfl

/-- WHAT POINT t WRITES BACK is block t of `kernelResult`. -/
theorem flushed_eq (c : Dev nD) (t : Fin cfg0.N) :
    (dats m 0 c).flushed 5 t = ((cfg0.win 5).blk t).view.read (Elt Ideal) (kernelResult m c) := by
  rw [Value.flushed5]
  unfold out0_5
  rw [View.canon_unit_zero hz2]
  simp only [View.ld_unit_zero (S := S2048x125) hz2, View.ld_unit_zero (S := S125x400) hz2,
    View.ld_unit_zero (S := S400) hz1]
  obtain ⟨e00, e01, e10, e11, e20, e30, e31, e40, e50, e51⟩ := idx_facts t
  funext j
  obtain ⟨p, q, rfl⟩ : ∃ (p : Fin 2048) (q : Fin 200), j = ix2 p q := ⟨j 0, j 1, eq_ix2 j⟩
  have hp : p.val < 2048 := p.isLt
  have hq : q.val < 200 := q.isLt
  refine (Body.pay_apply (iblk m c 0 t) (iblk m c 1 t) (iblk m c 3 t) (iblk m c 2 t) (iblk m c 4 t) p q).trans ?_
  show _ = out (fun d => tokens m c (ix2 ((((cfg0.win 5).blk t).view.emb (ix2 p q)) 0) d)) (wFwd m c) (bFwd m c)
    (wBwd m c) (bBwd m c) ((((cfg0.win 5).blk t).view.emb (ix2 p q)) 1)
  refine out_congr ?_ ?_ ?_ ?_ ?_ ?_
  · funext d
    have hd : d.val < 125 := d.isLt
    show V m c main_v14 (((cfg0.win 0).blk t).view.emb (ix2 p d)) = V m c main_v14 _
    refine congrArg _ (funext fun a => Fin.ext ?_)
    match a with
    | ⟨0, _⟩ =>
      show win0_0.index t (0 : Fin 2) * 2048 + 1 * p.val = win0_5.index t (0 : Fin 2) * 2048 + 1 * p.val
      omega
    | ⟨1, _⟩ =>
      show win0_0.index t (1 : Fin 2) * 125 + 1 * d.val = d.val
      omega
  · funext y
    show V m c main_v17 (((cfg0.win 1).blk t).view.emb y) = V m c main_v17 y
    refine congrArg _ (funext fun a => Fin.ext ?_)
    match a with
    | ⟨0, _⟩ => show win0_1.index t (0 : Fin 2) * 125 + 1 * (y 0).val = (y 0).val; omega
    | ⟨1, _⟩ => show win0_1.index t (1 : Fin 2) * 400 + 1 * (y 1).val = (y 1).val; omega
  · funext y
    show V m c main_v15 (((cfg0.win 2).blk t).view.emb y) = V m c main_v15 y
    refine congrArg _ (funext fun a => Fin.ext ?_)
    match a with
    | ⟨0, _⟩ => show win0_2.index t (0 : Fin 1) * 400 + 1 * (y 0).val = (y 0).val; omega
  · funext y
    show V m c main_v18 (((cfg0.win 3).blk t).view.emb y) = V m c main_v18 y
    refine congrArg _ (funext fun a => Fin.ext ?_)
    match a with
    | ⟨0, _⟩ => show win0_3.index t (0 : Fin 2) * 125 + 1 * (y 0).val = (y 0).val; omega
    | ⟨1, _⟩ => show win0_3.index t (1 : Fin 2) * 400 + 1 * (y 1).val = (y 1).val; omega
  · funext y
    show V m c main_v16 (((cfg0.win 4).blk t).view.emb y) = V m c main_v16 y
    refine congrArg _ (funext fun a => Fin.ext ?_)
    match a with
    | ⟨0, _⟩ => show win0_4.index t (0 : Fin 1) * 400 + 1 * (y 0).val = (y 0).val; omega
  · refine Fin.ext ?_
    show q.val = win0_5.index t (1 : Fin 2) * 200 + 1 * q.val
    omega

/-- An index of the result array is in point t's block iff each coordinate is in the block's range on its axis. -/
theorem mem_blk (t : Fin cfg0.N) (i : S262144x200.Idx) :
    i ∈ ((cfg0.win 5).blk t).view.set ↔ ∀ a : Fin 2, win0_5.index t a * S2048x200.size a ≤ (i a).val
      ∧ (i a).val < win0_5.index t a * S2048x200.size a + S2048x200.size a := by
  show i ∈ ((View.whole main_v19).slice (win0_5.rect t)).set ↔ _
  rw [View.set_slice_whole, Rect.mem_set_unit]
  exact Iff.rfl

/-- Every index of the result array is in the block of the point its row falls in. -/
theorem cover (i : S262144x200.Idx) :
    ∃ t : Fin cfg0.N, (cfg0.win 5).flush t = true ∧ i ∈ ((cfg0.win 5).blk t).view.set := by
  have h0 : (i 0).val < 262144 := (i 0).isLt
  have h1 : (i 1).val < 200 := (i 1).isLt
  let t : Fin cfg0.N := ⟨(i 0).val / 2048, by show (i 0).val / 2048 < 128; omega⟩
  obtain ⟨-, -, -, -, -, -, -, -, e50, e51⟩ := idx_facts t
  have et : t.val = (i 0).val / 2048 := rfl
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 200 ≤ (i 1).val ∧ (i 1).val < win0_5.index t (1 : Fin 2) * 200 + 200
    omega

/-- THE ARRAY after the run is `kernelResult`. -/
theorem final (c : Dev nD) : (dats m 0 c).arrAt 5 cfg0.N = kernelResult m c :=
  (dats m 0 c).arrAt_eq_of_cover 5 (kernelResult m c) (fun t _ => flushed_eq m c t) cover

end Cert.KernelIdeal.Whole

end
-- ==== Proof.RefCell.lean ====
/-
  The reference's result, read at an entry.

  The reference multiplies all 262144 token rows by each direction's transposed weights, adds the bias row to
  every row, cuts the gate groups out of the 400 gate columns, applies the logistic function written out as
  `1 / (1 + e⁻ˣ)` and tanh, and lays the two directions' hidden units side by side. Entry (n, q) of the result is
  the step's result row for token row n, at position q.
-/
import proofs.«151744_j28037546508993_1_alg».proof.Proof.Gen.ReferenceIdeal.Read
import proofs.«151744_j28037546508993_1_alg».proof.Proof.Cell
import proofs.«151744_j28037546508993_1_alg».proof.Proof.LibPlainDot
import Idealize.ShloMosaic.Lib.Pipeline.Value
import Idealize.ShloMosaic.Lib.ValueLayout

noncomputable section

namespace Cert.ReferenceIdeal.Step

open Cert.ReferenceIdeal Cert.ReferenceIdeal.Gen Cert.ReferenceIdeal.Read Idealize.ShloMosaic
open Idealize.ShloMosaic.ValueIdx Cert.Cell

/-- One direction's gates from the token rows, the transposed weights and the summed bias, as the host computes them. -/
def hostGates (X : FVec Ideal S262144x125 .f32) (W : FVec Ideal S125x400 .f32) (B : FVec Ideal S400 .f32) :
    FVec Ideal S262144x400 .f32 :=
  addf (F := Ideal) (Host.dotGeneral (F := Ideal) dot_S262144x125_S125x400_S262144x400_1_0_0_1_n_n none X W)
    (broadcastInDim S262144x400 ![0, 1] bcast_S1x400_S262144x400_0_1 (broadcastInDim S1x400 ![1] bcast_S400_S1x400_1 B))

/-- One direction's hidden units from its gates, as the host computes them. -/
def hostHidden (g : FVec Ideal S262144x400 .f32) : FVec Ideal S262144x100 .f32 :=
  mulf (F := Ideal)
    (Host.divf (F := Ideal) (broadcastInDim S262144x100 ![] bcast_S_S262144x100 (constant (F := Ideal) S_ .f32 0x3F800000#32))
      (addf (F := Ideal) (broadcastInDim S262144x100 ![] bcast_S_S262144x100 (constant (F := Ideal) S_ .f32 0x3F800000#32))
        (Host.exp (F := Ideal) (Host.negf (F := Ideal)
          (extractStridedSlice S262144x100 ![0, 300] g slices_S262144x400_S262144x100_0_300)))))
    (Host.tanh (F := Ideal) (mulf (F := Ideal)
      (Host.divf (F := Ideal) (broadcastInDim S262144x100 ![] bcast_S_S262144x100 (constant (F := Ideal) S_ .f32 0x3F800000#32))
        (addf (F := Ideal) (broadcastInDim S262144x100 ![] bcast_S_S262144x100 (constant (F := Ideal) S_ .f32 0x3F800000#32))
          (Host.exp (F := Ideal) (Host.negf (F := Ideal)
            (extractStridedSlice S262144x100 ![0, 0] g slices_S262144x400_S262144x100_0_0)))))
      (Host.tanh (F := Ideal) (extractStridedSlice S262144x100 ![0, 200] g slices_S262144x400_S262144x100_0_200))))

/-- Gate (n, k): row n against column k of the weights, plus bias k. -/
theorem hostGates_apply (X : FVec Ideal S262144x125 .f32) (W : FVec Ideal S125x400 .f32) (B : FVec Ideal S400 .f32)
    (n : Fin 262144) (k : Fin 400) :
    hostGates X W B (ix2 n k) = gate (fun d => X (ix2 n d)) W B k := by
  unfold hostGates gate
  rw [addf_apply]
  have hb : broadcastInDim S262144x400 ![0, 1] bcast_S1x400_S262144x400_0_1
      (broadcastInDim S1x400 ![1] bcast_S400_S1x400_1 B) (ix2 n k) = B (ix1 k) := by
    rw [broadcastInDim_apply _ bcast_S1x400_S262144x400_0_1 _ (ix2 n k) (ix2 (0 : Fin 1) k) (fun a => by
      match a with
      | ⟨0, _⟩ => rfl
      | ⟨1, _⟩ => rfl)]
    exact broadcastInDim_apply _ bcast_S400_S1x400_1 B (ix2 (0 : Fin 1) k) (ix1 k) (fun a => by
      match a with
      | ⟨0, _⟩ => rfl)
  rw [hb]
  refine congrArg (· + B (ix1 k)) ?_
  exact Cert.Lib.PlainDot.dotGeneral_apply 262144 125 400 none _ X W n k

/-- The scalar one spread over the array reads one everywhere. -/
theorem one_bcast (h : S_.BroadcastsInDim S262144x100 (![] : Fin 0 → Fin S262144x100.rank)) (i : S262144x100.Idx) :
    broadcastInDim S262144x100 ![] h (constant (F := Ideal) S_ .f32 0x3F800000#32) i = Ideal.ofBits .f32 0x3F800000#32 :=
  broadcastInDim_apply _ h _ i (fun a => a.elim0) (fun a => a.elim0)

/-- Hidden unit (n, j) of one direction, from that direction's gates of row n. -/
theorem hostHidden_apply (g : FVec Ideal S262144x400 .f32) (x : Fin 125 → EReal) (w : FVec Ideal S125x400 .f32)
    (b : FVec Ideal S400 .f32) (n : Fin 262144) (hg : ∀ k, g (ix2 n k) = gate x w b k) (j : Fin 100) :
    hostHidden g (ix2 n j) = hidden x w b j := by
  unfold hostHidden
  have h1 := one_bcast bcast_S_S262144x100 (ix2 n j)
  simp only [mulf, addf, Host.divf, Host.exp, Host.negf, Host.tanh, slice2_axis1_eq, hg,
    Ideal.hostDivf_def, Ideal.hostUnary_exp_def, Ideal.hostNegf_def, Ideal.negf_def, Ideal.addf_def, Ideal.mulf_def,
    Ideal.hostUnary_tanh_def]
  rw [h1, logistic_expanded, logistic_expanded]
  rfl

/-- THE REFERENCE'S RESULT is the step applied to each of its token rows: both directions' host operations are
    `hostHidden` of `hostGates` of the token rows, that direction's transposed weights and its summed bias. -/
theorem result_eq (x0 x1 : (⟨S262144, .i32⟩ : BufTy).Contents (Elt Ideal)) (x2 : (⟨S50000x100, .f32⟩ : BufTy).Contents (Elt Ideal))
    (x3 : (⟨S64x25, .f32⟩ : BufTy).Contents (Elt Ideal)) (x4 : (⟨S400x125, .f32⟩ : BufTy).Contents (Elt Ideal))
    (x5 x6 : (⟨S400, .f32⟩ : BufTy).Contents (Elt Ideal)) (x7 : (⟨S400x125, .f32⟩ : BufTy).Contents (Elt Ideal))
    (x8 x9 : (⟨S400, .f32⟩ : BufTy).Contents (Elt Ideal)) :
    val_main_v67 (F := Ideal) x0 x1 x2 x3 x4 x5 x6 x7 x8 x9
      = result 262144 (val_main_v14 (F := Ideal) x0 x1 x2 x3) (val_main_v16 (F := Ideal) x4) (val_main_v15 (F := Ideal) x5 x6)
          (val_main_v42 (F := Ideal) x7) (val_main_v41 (F := Ideal) x8 x9) := by
  funext i
  obtain ⟨n, q, rfl⟩ : ∃ (n : Fin 262144) (q : Fin 200), i = ix2 n q := ⟨i 0, i 1, eq_ix2 i⟩
  rw [result_ix2]
  unfold val_main_v67 out
  by_cases h : q.val < 100
  · rw [dif_pos h]
    refine (concatenate_pair_apply_left (t := S262144x200) (s₁ := S262144x100) (s₂ := S262144x100) (1 : Fin 2) _ _ _
      (ix2 n q) rfl (ix2 n (⟨q.val, h⟩ : Fin 100)) (fun b => by match b with | ⟨0, _⟩ => rfl | ⟨1, _⟩ => rfl)).trans ?_
    show hostHidden (hostGates (val_main_v14 (F := Ideal) x0 x1 x2 x3) (val_main_v16 (F := Ideal) x4)
      (val_main_v15 (F := Ideal) x5 x6)) (ix2 n (⟨q.val, h⟩ : Fin 100)) = _
    exact hostHidden_apply _ _ _ _ n (fun k => hostGates_apply _ _ _ n k) _
  · rw [dif_neg h]
    have hq : q.val - 100 < 100 := by have := q.isLt; omega
    refine (concatenate_pair_apply_right (t := S262144x200) (s₁ := S262144x100) (s₂ := S262144x100) (1 : Fin 2) _ _ _
      (ix2 n q) rfl rfl (ix2 n (⟨q.val - 100, hq⟩ : Fin 100))
      (fun b hb => by
        match b with
        | ⟨0, _⟩ => rfl
        | ⟨1, _⟩ => exact absurd rfl hb)
      (by show (q.val - 100) + 100 = q.val; omega)).trans ?_
    show hostHidden (hostGates (val_main_v14 (F := Ideal) x0 x1 x2 x3) (val_main_v42 (F := Ideal) x7)
      (val_main_v41 (F := Ideal) x8 x9)) (ix2 n (⟨q.val - 100, hq⟩ : Fin 100)) = _
    exact hostHidden_apply _ _ _ _ n (fun k => hostGates_apply _ _ _ n k) _

end Cert.ReferenceIdeal.Step

end
-- ==== Proof.HostArrays.lean ====
/-
  What the kernel's region finds in the arrays it stages, against the reference's own intermediate values.

  Before the region the kernel's program gathers each token's word and tag embedding rows and joins them into the
  token rows, sums each direction's two bias vectors, and transposes each direction's input weights. The reference
  begins with exactly these operations on the same arguments, so the five arrays the region stages are the
  reference's token rows, transposed weights and summed biases: the same terms, operation for operation.
-/
import proofs.«151744_j28037546508993_1_alg».proof.Proof.Gen.KernelIdeal.Frame
import proofs.«151744_j28037546508993_1_alg».proof.Proof.Gen.ReferenceIdeal.Read
import Idealize.ShloMosaic.Lib.StableHlo.Run

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F] (m : (ℓ : Loc nD τ sig) → Buf (Elt F) ℓ)

set_option maxHeartbeats 4000000 in
/-- The token rows: word and tag embedding rows gathered (negative indices wrapped once) and joined. -/
theorem tokens_eq (c : Dev nD) :
    (V m c main_v14 : (⟨S262144x125, .f32⟩ : BufTy).Contents (Elt F))
      = Cert.ReferenceIdeal.Read.val_main_v14 (F := F) (m ((c : Thread nD τ).loc main_arg0)) (m ((c : Thread nD τ).loc main_arg1)) (m ((c : Thread nD τ).loc main_arg2)) (m ((c : Thread nD τ).loc main_arg3)) := by
  dsimp only [V, hostOps0]
  after_results_simp
  rfl

/-- The forward direction's transposed input weights. -/
theorem wFwd_eq (c : Dev nD) :
    (V m c main_v17 : (⟨S125x400, .f32⟩ : BufTy).Contents (Elt F)) = Cert.ReferenceIdeal.Read.val_main_v16 (F := F) (m ((c : Thread nD τ).loc main_arg4)) := by
  dsimp only [V, hostOps0]
  after_results
  rfl

/-- The forward direction's summed bias. -/
theorem bFwd_eq (c : Dev nD) :
    (V m c main_v15 : (⟨S400, .f32⟩ : BufTy).Contents (Elt F)) = Cert.ReferenceIdeal.Read.val_main_v15 (F := F) (m ((c : Thread nD τ).loc main_arg5)) (m ((c : Thread nD τ).loc main_arg6)) := by
  dsimp only [V, hostOps0]
  after_results
  rfl

/-- The backward direction's transposed input weights. -/
theorem wBwd_eq (c : Dev nD) :
    (V m c main_v18 : (⟨S125x400, .f32⟩ : BufTy).Contents (Elt F)) = Cert.ReferenceIdeal.Read.val_main_v42 (F := F) (m ((c : Thread nD τ).loc main_arg7)) := by
  dsimp only [V, hostOps0]
  after_results
  rfl

/-- The backward direction's summed bias. -/
theorem bBwd_eq (c : Dev nD) :
    (V m c main_v16 : (⟨S400, .f32⟩ : BufTy).Contents (Elt F)) = Cert.ReferenceIdeal.Read.val_main_v41 (F := F) (m ((c : Thread nD τ).loc main_arg8)) (m ((c : Thread nD τ).loc main_arg9)) := by
  dsimp only [V, hostOps0]
  after_results
  rfl

end Cert.KernelIdeal.HostSide

end
-- ==== Proof.lean ====
/-
  A bidirectional LSTM's first step from the zero state, per token: kernel against reference over the extended reals.

  Both programs gather each token's word and tag embedding rows and join them into a row of 125 entries, sum each
  direction's two bias vectors and transpose each direction's input weights. The kernel then walks the 262144 token
  rows in 128 blocks of 2048 rows; on each block it forms both directions' 400 gates (the block times the transposed
  weights, plus the bias row), and from the input, cell and output gate groups the hidden units
  `σ(o) · tanh (σ(i) · tanh g)`, writing the forward units beside the backward ones. The reference does the same on all
  rows at once, with `σ x` written out as `1 / (1 + e⁻ˣ)`. Over the extended reals the narrowing of the kernel's matrix
  operands is the identity, a matrix product is the plain sum of products whether it is taken block by block or whole,
  and the logistic function is that quotient, so both results are one function of the arguments, row by row:
  `Cert.Cell.result`. No law that needs finite entries is used.

  The kernel's side: the stored value at an entry (KernelCell), block t of the result from point t and the blocks'
  cover (KernelArray). The reference's side: its result at an entry (RefCell). The arrays the kernel's region finds
  are the reference's own intermediate values (HostArrays). The frames are the generated ones; the kernel's
  idealization rewrote nothing.
-/
import proofs.«151744_j28037546508993_1_alg».proof.Defs
import proofs.«151744_j28037546508993_1_alg».proof.Proof.Gen.Kernel
import proofs.«151744_j28037546508993_1_alg».proof.Proof.Gen.Kernel.Skeleton
import proofs.«151744_j28037546508993_1_alg».proof.Proof.Gen.Kernel.Launch
import proofs.«151744_j28037546508993_1_alg».proof.Proof.Gen.Kernel.Points
import proofs.«151744_j28037546508993_1_alg».proof.Proof.Gen.Kernel.Frame
import proofs.«151744_j28037546508993_1_alg».proof.Proof.Gen.KernelIdeal
import proofs.«151744_j28037546508993_1_alg».proof.Proof.Gen.KernelIdeal.Skeleton
import proofs.«151744_j28037546508993_1_alg».proof.Proof.Gen.KernelIdeal.Launch
import proofs.«151744_j28037546508993_1_alg».proof.Proof.Gen.KernelIdeal.Points
import proofs.«151744_j28037546508993_1_alg».proof.Proof.Gen.KernelIdeal.Frame
import proofs.«151744_j28037546508993_1_alg».proof.Proof.Gen.ReferenceIdeal
import proofs.«151744_j28037546508993_1_alg».proof.Proof.Gen.Pre_finite_inputs
import proofs.«151744_j28037546508993_1_alg».proof.Proof.Gen.KernelIdeal.Value
import proofs.«151744_j28037546508993_1_alg».proof.Proof.Gen.ReferenceIdeal.Run
import proofs.«151744_j28037546508993_1_alg».proof.Proof.Gen.ReferenceIdeal.Read
import proofs.«151744_j28037546508993_1_alg».proof.Proof.KernelArray
import proofs.«151744_j28037546508993_1_alg».proof.Proof.RefCell
import proofs.«151744_j28037546508993_1_alg».proof.Proof.HostArrays
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From agreeing arguments the reference's result is the kernel's: the step applied to each token row, over the
    token rows, transposed weights and summed biases both programs compute alike. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v67 (F := Ideal) m' c = Cert.KernelIdeal.Whole.kernelResult m c := by
  rw [Cert.ReferenceIdeal.Read.val_main_v67_eq, a0, a1, a2, a3, a4, a5, a6, a7, a8, a9,
    Cert.ReferenceIdeal.Step.result_eq]
  show _ = Cert.Cell.result 262144 (Cert.KernelIdeal.Gen.V m c Cert.KernelIdeal.main_v14)
    (Cert.KernelIdeal.Gen.V m c Cert.KernelIdeal.main_v17) (Cert.KernelIdeal.Gen.V m c Cert.KernelIdeal.main_v15)
    (Cert.KernelIdeal.Gen.V m c Cert.KernelIdeal.main_v18) (Cert.KernelIdeal.Gen.V m c Cert.KernelIdeal.main_v16)
  rw [Cert.KernelIdeal.HostSide.tokens_eq m c, Cert.KernelIdeal.HostSide.wFwd_eq m c,
    Cert.KernelIdeal.HostSide.bFwd_eq m c, Cert.KernelIdeal.HostSide.wBwd_eq m c,
    Cert.KernelIdeal.HostSide.bBwd_eq m c]

/-- Both idealized programs run; the kernel's result array ends at the step applied to each token row (the blocks'
    cover), and so does the reference's. -/
theorem algebraic : Cert.algebraic_KernelIdeal_ReferenceIdeal := by
  intro m ρ m' ρ' _ hagree
  refine ⟨fun c => Cert.KernelIdeal.Whole.kernelResult m c, ?_, ?_⟩
  · exact (θ_run Cert.KernelIdeal.defs _ _).mono
      (fun r h c => ⟨(h c).1.trans (Cert.KernelIdeal.Whole.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9⟩ := hagree c
    exact results_agree m m' c a0 a1 a2 a3 a4 a5 a6 a7 a8 a9

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
